-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S16384x128 : Shape := ⟨2, ![16384, 128]⟩

abbrev nBuf : Space → Nat
  | .hbm => 4
  | .vmem => 4
  | .smem => 0
  | _ => 0

abbrev bufTy : (tb : Table) → Fin (tcTables nBuf tb) → BufTy
  | .hbm, ⟨0, _⟩ => ⟨S67108864, .f32⟩
  | .hbm, ⟨1, _⟩ => ⟨S524288x128, .f32⟩
  | .hbm, ⟨2, _⟩ => ⟨S524288x128, .f32⟩
  | .hbm, ⟨3, _⟩ => ⟨S67108864, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S67108864_S524288x128 : S67108864.ShapeCasts S524288x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S524288x128_S67108864 : S524288x128.ShapeCasts S67108864
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S524288x128.size a
  hwx0_1 : ∀ i : grid0.Coords, EltTy.bits .f32 = 32 ∨ (Rect.block (s := S524288x128) S16384x128.size (cc0_transform_1 i) (hinb0_1 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S67108864 : Shape := ⟨1, ![67108864]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S_, .f32⟩
  | .hbm, ⟨2, _⟩ => ⟨S67108864, .f32⟩
  | .hbm, ⟨3, _⟩ => ⟨S67108864, .i1⟩
  | .hbm, ⟨4, _⟩ => ⟨S67108864, .f32⟩
  | .hbm, ⟨5, _⟩ => ⟨S67108864, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)

variable [Facts₀]

class Facts : Prop extends Facts₀ where

variable [Facts]
-- ==== Proof.Spec.lean ====
/-
  The function both programs compute, one element at a time: an element that compares greater than zero is
  replaced by its square, every other element is kept. Over an array this is a pointwise map, so it commutes
  with any re-indexing of the array; in particular a reshape to another shape and back leaves the map of the
  original array.
-/
import Idealize.ShloMosaic.PureOps.Ideal
import Idealize.ShloMosaic.Lib.ValueIdx
import Idealize.ShloMosaic.Lib.Pipeline.Value

noncomputable section

namespace Cert.SquareWherePositive

open Idealize.ShloMosaic

variable {F : FTy → Type} [FloatOps F]

/-- One element: `a · a` where `a > 0` (the ordered comparison against the zero word), `a` itself elsewhere. -/
def sqPos (a : Elt F .f32) : Elt F .f32 :=
  Scalar.select (FloatOps.cmpf .ogt a (FloatOps.ofBits .f32 0x00000000#32)) (FloatOps.mulf a a) a

/-- The same, element by element over an array of any shape. -/
def sqPosV {s : Shape} (x : s.Idx → Elt F .f32) : s.Idx → Elt F .f32 := fun i => sqPos (x i)

theorem sqPosV_apply {s : Shape} (x : s.Idx → Elt F .f32) (i : s.Idx) : sqPosV x i = sqPos (x i) := rfl

/-- A pointwise map commutes with a reshape: both read the operand at the index with the same row-major position. -/
theorem sqPosV_shapeCast {s t : Shape} (x : s.Idx → Elt F .f32) (h : s.ShapeCasts t) :
    sqPosV (shapeCast t x h) = shapeCast t (sqPosV x) h := rfl

/-- Reshape, map, reshape back: the map of the original array. -/
theorem shapeCast_sqPosV_shapeCast {s t : Shape} (x : s.Idx → Elt F .f32) (h : s.ShapeCasts t) (h' : t.ShapeCasts s) :
    shapeCast s (sqPosV (shapeCast t x h)) h' = sqPosV x := by
  rw [sqPosV_shapeCast, shapeCast_shapeCast]

end Cert.SquareWherePositive

end
-- ==== Proof.RefValue.lean ====
/-
  The reference, read one element at a time: it compares the input against a broadcast zero, squares the input,
  and selects the square where the comparison holds and the input elsewhere. Element `i` of its result is therefore
  the one-element function of `Spec` applied to element `i` of the input.
-/
import proofs.«144001_j87454124082093_1_alg».proof.Proof.Gen.ReferenceIdeal.Read
import proofs.«144001_j87454124082093_1_alg».proof.Proof.Spec

noncomputable section

namespace Cert.ReferenceIdeal.RefValue

open Cert.ReferenceIdeal Cert.ReferenceIdeal.Gen Cert.ReferenceIdeal.Read Cert.SquareWherePositive
open Idealize.ShloMosaic

variable {F : FTy → Type} [FloatOps F]

/-- The reference's last stage is the pointwise map: the broadcast constant read at any index is the zero word,
    and the remaining three operations act on element `i` alone. -/
theorem stage_eq (x0 : S67108864.Idx → Elt F .f32) : val_main_v3 (F := F) x0 = sqPosV x0 := by
  funext i
  rw [val_main_v3_apply, val_main_v1_apply, val_main_v2_apply, val_main_v0_apply, val_main_cst_apply]
  rfl

/-- The term the reference's run states for its result is the pointwise map of the argument. -/
theorem result_eq (x0 : S67108864.Idx → Elt F .f32) :
    select (cmpf .ogt (x0) (broadcastInDim S67108864 ![] bcast_S_S67108864 (constant S_ .f32 0x00000000#32))) (mulf (x0) (x0)) (x0)
      = sqPosV x0 :=
  (val_main_v3_eq (F := F) x0).trans (stage_eq x0)

end Cert.ReferenceIdeal.RefValue

end
-- ==== Proof.KernelPayload.lean ====
/-
  The kernel body on one block: it loads the block, compares it against a splat zero, squares it, selects the
  square where the comparison holds and the loaded value elsewhere, and stores the result over the whole output
  block. The stored value is the pointwise map of `Spec` applied to the loaded block (the shape cast in the body
  is to the block's own shape, hence the identity).
-/
import proofs.«144001_j87454124082093_1_alg».proof.Proof.Gen.KernelIdeal.Skeleton
import proofs.«144001_j87454124082093_1_alg».proof.Proof.Spec

noncomputable section

namespace Cert.KernelIdeal.KValue

open Cert.KernelIdeal Cert.KernelIdeal.Gen Cert.SquareWherePositive
open Idealize.ShloMosaic

variable {F : FTy → Type} [FloatOps F]

/-- What the body stores, as a function of the block it loaded. -/
theorem payload_eq (v0 : Vec F S16384x128 .f32) : k0_pay1 v0 = sqPosV v0 := by
  unfold k0_pay1
  dsimp only
  rw [shapeCast_self]
  rfl

end Cert.KernelIdeal.KValue

end
-- ==== Proof.KernelBlocks.lean ====
/-
  From blocks to the array. The kernel's one region has 32 grid points; at point `t` the input window stages rows
  `16384·t … 16384·t + 16383` (all 128 columns) of the reshaped input, and the output window writes the same rows
  of the output array back. What point `t` writes is the pointwise map of the block it loaded, and a pointwise map
  of a block of an array is the same block of the pointwise map of the array. Row `r` of the output lies in the
  block of point `r / 16384`, so the 32 blocks cover the array and it ends holding the pointwise map of the
  reshaped input.
-/
import proofs.«144001_j87454124082093_1_alg».proof.Proof.Gen.KernelIdeal.Frame
import proofs.«144001_j87454124082093_1_alg».proof.Proof.KernelPayload
import Idealize.ShloMosaic.Lib.Pipeline.Value

set_option maxRecDepth 16384

noncomputable section

namespace Cert.KernelIdeal.KValue

open Cert.KernelIdeal Cert.KernelIdeal.Gen Cert.SquareWherePositive
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- The body's one load and one store are through the whole block: offsets zero on both axes. -/
theorem zero_offsets : (![0, 0] : Fin 2 → Nat) = fun _ => 0 := funext fun a => by fin_cases a <;> rfl

/-- The printed index maps, decided over the 32 points: both windows are at block row `t`, block column `0`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the pointwise map of the reshaped input as the region finds it. -/
theorem flushed_eq (c : Dev nD) (t : Fin cfg0.N) :
    (dats m 0 c).flushed 1 t = ((cfg0.win 1).blk t).view.read (Elt F) (sqPosV (V m c main_v0)) := by
  show (cfg0.win 1).cut (grid0.coords t) ((dats m 0 c).after 1 t) = _
  rw [after0_1]
  unfold out0_1
  rw [View.canon_unit_zero zero_offsets]
  simp only [View.ld_unit_zero (S := S16384x128) zero_offsets]
  rw [payload_eq]
  obtain ⟨e0, e1, e2, e3⟩ := block_index t
  funext j
  show sqPos (V m c main_v0 (((cfg0.win 0).blk t).view.emb j)) = sqPos (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 128 + 1 * (j 1).val = win0_1.index t (1 : Fin 2) * 128 + 1 * (j 1).val; omega
  rw [h0]

/-- An index of the output array is in point `t`'s block iff each coordinate is in the block's range on its axis. -/
theorem mem_block (t : Fin cfg0.N) (i : S524288x128.Idx) :
    i ∈ ((cfg0.win 1).blk t).view.set ↔ ∀ a : Fin 2, win0_1.index t a * S16384x128.size a ≤ (i a).val ∧ (i a).val < win0_1.index t a * S16384x128.size a + S16384x128.size a := by
  show i ∈ ((View.whole main_v1).slice (win0_1.rect t)).set ↔ _
  rw [View.set_slice_whole, Rect.mem_set_unit]
  exact Iff.rfl

/-- Every index of the output array is in the block of the point its row names. -/
theorem covered (i : S524288x128.Idx) :
    ∃ t : Fin cfg0.N, (cfg0.win 1).flush t = true ∧ i ∈ ((cfg0.win 1).blk t).view.set := by
  have hi0 : (i 0).val < 524288 := (i 0).isLt
  have hi1 : (i 1).val < 128 := (i 1).isLt
  have hN : cfg0.N = 32 := N_0
  have hlt : (i 0).val / 16384 < cfg0.N := by rw [hN]; omega
  obtain ⟨-, -, e2, e3⟩ := block_index ⟨(i 0).val / 16384, hlt⟩
  have e2' : win0_1.index ⟨(i 0).val / 16384, hlt⟩ (0 : Fin 2) = (i 0).val / 16384 := e2
  refine ⟨⟨(i 0).val / 16384, hlt⟩, flush0_1 _, ?_⟩
  rw [mem_block]
  intro a
  match a with
  | ⟨0, _⟩ =>
    show win0_1.index ⟨(i 0).val / 16384, hlt⟩ (0 : Fin 2) * 16384 ≤ (i 0).val ∧ (i 0).val < win0_1.index ⟨(i 0).val / 16384, hlt⟩ (0 : Fin 2) * 16384 + 16384
    omega
  | ⟨1, _⟩ =>
    show win0_1.index ⟨(i 0).val / 16384, hlt⟩ (1 : Fin 2) * 128 ≤ (i 1).val ∧ (i 1).val < win0_1.index ⟨(i 0).val / 16384, hlt⟩ (1 : Fin 2) * 128 + 128
    omega

/-- The output array after the region: the pointwise map of the reshaped input. -/
theorem array_after (c : Dev nD) : (dats m 0 c).arrAt 1 cfg0.N = sqPosV (V m c main_v0) :=
  (dats m 0 c).arrAt_eq_of_cover 1 _ (fun t _ => flushed_eq m c t) covered

end Cert.KernelIdeal.KValue

end
-- ==== Proof.KernelRun.lean ====
/-
  The kernel's whole program: a reshape of the flat argument to 524288 rows of 128 lanes, the region, and a reshape
  of the region's output back to the flat shape. The region leaves the pointwise map of the reshaped argument
  (KernelBlocks); a pointwise map commutes with a reshape, and a reshape there and back is the identity (Spec); so
  the program's result is the pointwise map of the argument itself. The argument array is written by nothing.
-/
import proofs.«144001_j87454124082093_1_alg».proof.Proof.Gen.KernelIdeal.Frame
import proofs.«144001_j87454124082093_1_alg».proof.Proof.KernelBlocks
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.SquareWherePositive
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The array the region's input window stages: the host's reshape of the argument. -/
theorem entry_input (c : Dev nD) :
    (V m c main_v0 : S524288x128.Idx → Elt F .f32)
      = shapeCast S524288x128 (m ((c : Thread nD τ).loc main_arg0)) shapeCasts_S67108864_S524288x128 := by
  show StableHlo.after hostOps0 (fun b => m (c, b)) (Proc.devRef .tc main_v0) = _
  after_results
  rfl

/-- The program's result after the host's last reshape: the pointwise map of the argument. -/
theorem result_after (c : Dev nD) :
    (Pipeline.afterTail₀ cfgs (dats m) 0 (V0 m) [hostOps1] c main_v2 : S67108864.Idx → Elt F .f32)
      = sqPosV (m ((c : Thread nD τ).loc main_arg0)) := by
  unfold Pipeline.afterTail₀
  show StableHlo.after hostOps1 _ (Proc.devRef .tc main_v2) = _
  after_results
  have hw : (Pipeline.withArrays spec0 c (V0 m c) (fun w => (dats m 0 c).arrAt w cfg0.N) (Proc.devRef .tc main_v1)
        : S524288x128.Idx → Elt F .f32) = sqPosV (V m c main_v0) :=
    (Pipeline.withArrays_arr spec0 launch0.win.arr_inj c _ _ 1).trans (array_after m c)
  show shapeCast S67108864 (Pipeline.withArrays spec0 c (V0 m c) (fun w => (dats m 0 c).arrAt w cfg0.N) (Proc.devRef .tc main_v1)
      : S524288x128.Idx → Elt F .f32) shapeCasts_S524288x128_S67108864 = _
  rw [hw, entry_input]
  exact shapeCast_sqPosV_shapeCast (m ((c : Thread nD τ).loc main_arg0)) shapeCasts_S67108864_S524288x128 shapeCasts_S524288x128_S67108864

/-- Every weakly fair execution of the kernel's program terminates with its result at the pointwise map of the
    argument and the argument unchanged: the frame run, with the result read through the host's last reshape. -/
theorem run : θ_run defs (onTc (τ := τ) (main (F := F))) ⟨m, fun _ => 0, ρ⟩ fun r => ∀ c : Dev nD,
      r.2.mem ((c.tc : Thread nD τ).loc main_v2) = sqPosV (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_after m c),
       ((h c).2 main_arg0 (Pipeline.mem_restRefs_of main_arg0 (by decide) (by decide))).trans (W_main_arg0 m (dats m) c)⟩)
    (run_main m ρ)

end Cert.KernelIdeal.KValue

end
-- ==== Proof.lean ====
/-
  The certificate of one elementwise kernel against its reference.

  Both programs compute, for a flat array `x` of 67108864 floats, the array whose element `i` is `x i · x i` where
  `x i` compares greater than zero and `x i` elsewhere. The reference does it in one pass over the flat array. The
  kernel reshapes `x` to 524288 rows of 128 lanes, runs one region of 32 grid points, each loading a block of 16384
  rows, applying the same three operations to it and storing the block of the output, and reshapes the output back.

  The two results agree because the function is pointwise: a block of the pointwise map of an array is the pointwise
  map of the block, the 32 blocks cover the output, a pointwise map commutes with a reshape, and reshaping there and
  back is the identity. No arithmetic law beyond that is used, so the precondition (finite inputs) is never opened:
  the equality holds at every extended real. The zero the comparison is made against is the same word in both
  programs and is never evaluated.

  The three frames: the kernel's two are its generated frame certificates; the reference has no kernel, and its
  frame is its run with the result dropped. The idealization rewrote no operation, so `preserves` is `True`.
-/
import proofs.«144001_j87454124082093_1_alg».proof.Defs
import proofs.«144001_j87454124082093_1_alg».proof.Proof.Gen.Kernel
import proofs.«144001_j87454124082093_1_alg».proof.Proof.Gen.Kernel.Skeleton
import proofs.«144001_j87454124082093_1_alg».proof.Proof.Gen.Kernel.Launch
import proofs.«144001_j87454124082093_1_alg».proof.Proof.Gen.Kernel.Points
import proofs.«144001_j87454124082093_1_alg».proof.Proof.Gen.Kernel.Frame
import proofs.«144001_j87454124082093_1_alg».proof.Proof.Gen.KernelIdeal
import proofs.«144001_j87454124082093_1_alg».proof.Proof.Gen.KernelIdeal.Skeleton
import proofs.«144001_j87454124082093_1_alg».proof.Proof.Gen.KernelIdeal.Launch
import proofs.«144001_j87454124082093_1_alg».proof.Proof.Gen.KernelIdeal.Points
import proofs.«144001_j87454124082093_1_alg».proof.Proof.Gen.KernelIdeal.Frame
import proofs.«144001_j87454124082093_1_alg».proof.Proof.Gen.ReferenceIdeal
import proofs.«144001_j87454124082093_1_alg».proof.Proof.Gen.ReferenceIdeal.Run
import proofs.«144001_j87454124082093_1_alg».proof.Proof.Gen.ReferenceIdeal.Read
import proofs.«144001_j87454124082093_1_alg».proof.Proof.Gen.Pre_finite_inputs
import proofs.«144001_j87454124082093_1_alg».proof.Proof.RefValue
import proofs.«144001_j87454124082093_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the pointwise map of the (agreeing) argument: the kernel by its run read through the
    region and the two reshapes, the reference by its run read one operation at a time. -/
theorem algebraic : Cert.algebraic_KernelIdeal_ReferenceIdeal := by
  intro m ρ m' ρ' _ hagree
  refine ⟨fun c => Cert.SquareWherePositive.sqPosV (s := Cert.KernelIdeal.S67108864)
      (m ((c.tc : Thread Cert.KernelIdeal.nD Cert.KernelIdeal.τ).loc Cert.KernelIdeal.main_arg0)),
    Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
